-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x12 : Shape := ⟨2, ![16384, 12]⟩
abbrev S12x1024 : Shape := ⟨2, ![12, 1024]⟩
abbrev S12288x1024 : Shape := ⟨2, ![12288, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384x12 : S_.BroadcastsInDim S16384x12 (![] : Fin 0 → Fin S16384x12.rank)
  reducesTo_S16384x12_S_d0_1 : S16384x12.ReducesTo [0, 1] S_
  h_S_ : 0 < S_.numel
  bcast_S_S12x1024 : S_.BroadcastsInDim S12x1024 (![] : Fin 0 → Fin S12x1024.rank)
  reducesTo_S12x1024_S_d0_1 : S12x1024.ReducesTo [0, 1] S_
  bcast_S_S12288x1024 : S_.BroadcastsInDim S12288x1024 (![] : Fin 0 → Fin S12288x1024.rank)
  reducesTo_S12288x1024_S_d0_1 : S12288x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512x1 .f32) (main_arg8 : FVec F S1 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1024 .f32) (main_arg5 : FVec F S1024x512 .f32) (main_arg6 : FVec F S512 .f32) (main_arg7 : FVec F S512x1 .f32) (main_arg8 : FVec F S1 .f32) (main_v13 : IVec S_ 1) (main_v16 : IVec S12288x1024 1) : IVec S_ 1 :=
  let main_c_5 : IVec S_ 1 := constantI S_ 1 1#1
  let main_v17 : IVec S_ 1 := (fun x v => Host.reduce IntOp.andi x v reducesTo_S12288x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S16384x12 .f32) (main_arg1 : FVec F S12x1024 .f32) (main_arg2 : FVec F S12x1024 .f32) (main_arg3 : FVec F S12288x1024 .f32) (main_arg4 : FVec F S1024 .f32) (main_arg5 : FVec F S1024x512 .f32) (main_arg6 : FVec F S512 .f32) (main_arg7 : FVec F S512x1 .f32) (main_arg8 : FVec F S1 .f32) : IVec S_ 1 :=
  let main_v0 : FVec F S16384x12 .f32 := Host.absf main_arg0
  let main_cst : FVec F S_ .f32 := constant S_ .f32 0x7F800000#32
  let main_v1 : FVec F S16384x12 .f32 := broadcastInDim S16384x12 ![] bcast_S_S16384x12 main_cst
  let main_v2 : IVec S16384x12 1 := cmpf .olt main_v0 main_v1
  let main_c : IVec S_ 1 := constantI S_ 1 1#1
  let main_v3 : IVec S_ 1 := (fun x v => Host.reduce IntOp.andi x v reducesTo_S16384x12_S_d0_1 h_S_) main_v2 main_c
  let main_v4 : FVec F S12x1024 .f32 := Host.absf main_arg1
  let main_cst_0 : FVec F S_ .f32 := constant S_ .f32 0x7F800000#32
  let main_v5 : FVec F S12x1024 .f32 := broadcastInDim S12x1024 ![] bcast_S_S12x1024 main_cst_0
  let main_v6 : IVec S12x1024 1 := cmpf .olt main_v4 main_v5
  let main_c_1 : IVec S_ 1 := constantI S_ 1 1#1
  let main_v7 : IVec S_ 1 := (fun x v => Host.reduce IntOp.andi x v reducesTo_S12x1024_S_d0_1 h_S_) main_v6 main_c_1
  let main_v8 : IVec S_ 1 := andi main_v3 main_v7
  let main_v9 : FVec F S12x1024 .f32 := Host.absf main_arg2
  let main_cst_2 : FVec F S_ .f32 := constant S_ .f32 0x7F800000#32
  let main_v10 : FVec F S12x1024 .f32 := broadcastInDim S12x1024 ![] bcast_S_S12x1024 main_cst_2
  let main_v11 : IVec S12x1024 1 := cmpf .olt main_v9 main_v10
  let main_c_3 : IVec S_ 1 := constantI S_ 1 1#1
  let main_v12 : IVec S_ 1 := (fun x v => Host.reduce IntOp.andi x v reducesTo_S12x1024_S_d0_1 h_S_) main_v11 main_c_3
  let main_v13 : IVec S_ 1 := andi main_v8 main_v12
  let main_v14 : FVec F S12288x1024 .f32 := Host.absf main_arg3
  let main_cst_4 : FVec F S_ .f32 := constant S_ .f32 0x7F800000#32
  let main_v15 : FVec F S12288x1024 .f32 := broadcastInDim S12288x1024 ![] bcast_S_S12288x1024 main_cst_4
  let main_v16 : IVec S12288x1024 1 := cmpf .olt main_v14 main_v15
  fn_part1 (F := F) main_arg4 main_arg5 main_arg6 main_arg7 main_arg8 main_v13 main_v16
-- ==== Kernel.lean ====
abbrev S16384x12 : Shape := ⟨2, ![16384, 12]⟩
abbrev S12x1024 : Shape := ⟨2, ![12, 1024]⟩
abbrev S12288x1024 : Shape := ⟨2, ![12288, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1024x12 : Shape := ⟨2, ![1024, 12]⟩
abbrev S1x1024 : Shape := ⟨2, ![1, 1024]⟩
abbrev S1x512 : Shape := ⟨2, ![1, 512]⟩
abbrev S1x1 : Shape := ⟨2, ![1, 1]⟩
abbrev S16384x1 : Shape := ⟨2, ![16384, 1]⟩
abbrev S128x12 : Shape := ⟨2, ![128, 12]⟩
abbrev S1536x1024 : Shape := ⟨2, ![1536, 1024]⟩
abbrev S1024x1 : Shape := ⟨2, ![1024, 1]⟩
abbrev S1024x1024 : Shape := ⟨2, ![1024, 1024]⟩
abbrev S1024x1x12 : Shape := ⟨3, ![1024, 1, 12]⟩
abbrev S1x128x12 : Shape := ⟨3, ![1, 128, 12]⟩
abbrev S1024x128x12 : Shape := ⟨3, ![1024, 128, 12]⟩
abbrev S1024x1536 : Shape := ⟨2, ![1024, 1536]⟩

abbrev nBuf : Space → Nat
  | .hbm => 18
  | .vmem => 16
  | .smem => 0
  | _ => 0

abbrev bufTy : (tb : Table) → Fin (tcTables nBuf tb) → BufTy
  | .hbm, ⟨0, _⟩ => ⟨S16384x12, .f32⟩
  | .hbm, ⟨1, _⟩ => ⟨S12x1024, .f32⟩
  | .hbm, ⟨2, _⟩ => ⟨S12x1024, .f32⟩
  | .hbm, ⟨3, _⟩ => ⟨S12288x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1024x12, .f32⟩
  | .hbm, ⟨10, _⟩ => ⟨S1024x12, .f32⟩
  | .hbm, ⟨11, _⟩ => ⟨S12288x1024, .bf16⟩
  | .hbm, ⟨12, _⟩ => ⟨S1024x512, .bf16⟩
  | .hbm, ⟨13, _⟩ => ⟨S512x1, .bf16⟩
  | .hbm, ⟨14, _⟩ => ⟨S1x1024, .f32⟩
  | .hbm, ⟨15, _⟩ => ⟨S1x512, .f32⟩
  | .hbm, ⟨16, _⟩ => ⟨S1x1, .f32⟩
  | .hbm, ⟨17, _⟩ => ⟨S16384x1, .f32⟩
  | .local _ .vmem, ⟨0, _⟩ => ⟨S1024x12, .f32⟩
  | .local _ .vmem, ⟨1, _⟩ => ⟨S1024x12, .f32⟩
  | .local _ .vmem, ⟨2, _⟩ => ⟨S128x12, .f32⟩
  | .local _ .vmem, ⟨3, _⟩ => ⟨S128x12, .f32⟩
  | .local _ .vmem, ⟨4, _⟩ => ⟨S128x12, .f32⟩
  | .local _ .vmem, ⟨5, _⟩ => ⟨S128x12, .f32⟩
  | .local _ .vmem, ⟨6, _⟩ => ⟨S1536x1024, .bf16⟩
  | .local _ .vmem, ⟨7, _⟩ => ⟨S1536x1024, .bf16⟩
  | .local _ .vmem, ⟨8, _⟩ => ⟨S1024x512, .bf16⟩
  | .local _ .vmem, ⟨9, _⟩ => ⟨S1x1024, .f32⟩
  | .local _ .vmem, ⟨10, _⟩ => ⟨S1x512, .f32⟩
  | .local _ .vmem, ⟨11, _⟩ => ⟨S512x1, .bf16⟩
  | .local _ .vmem, ⟨12, _⟩ => ⟨S1x1, .f32⟩
  | .local _ .vmem, ⟨13, _⟩ => ⟨S1024x1, .f32⟩
  | .local _ .vmem, ⟨14, _⟩ => ⟨S1024x1, .f32⟩
  | .local _ .vmem, ⟨15, _⟩ => ⟨S1024x1024, .f32⟩
  | _, _ => ⟨S16384x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S12x1024_S1024x12_1_0 : S12x1024.Transposes [1, 0] S1024x12
  bitsLt_bf16_f32 : FTy.bits .bf16 < FTy.bits .f32
  shapeCasts_S1024_S1x1024 : S1024.ShapeCasts S1x1024
  shapeCasts_S512_S1x512 : S512.ShapeCasts S1x512
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x12_S1024x12_0_0 : ∀ a, (![0, 0] : Fin 2 → Nat) a + S1024x12.size a ≤ S1024x12.size a
  h_S1024x12 : 0 < S1024x12.numel
  inb_S128x12_S128x12_0_0 : ∀ a, (![0, 0] : Fin 2 → Nat) a + S128x12.size a ≤ S128x12.size a
  h_S128x12 : 0 < S128x12.numel
  shapeCasts_S128x12_S128x12 : S128x12.ShapeCasts S128x12
  shapeCasts_S1024x12_S1024x1x12 : S1024x12.ShapeCasts S1024x1x12
  shapeCasts_S128x12_S1x128x12 : S128x12.ShapeCasts S1x128x12
  broadcasts_S1024x1x12_S1024x128x12 : S1024x1x12.Broadcasts S1024x128x12
  broadcasts_S1x128x12_S1024x128x12 : S1x128x12.Broadcasts S1024x128x12
  shapeCasts_S1024x128x12_S1024x1536 : S1024x128x12.ShapeCasts S1024x1536
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1536_S1536x1024_S1024x1024_1_0_0_1_n_n_wf : DotDims.WF S1024x1536 S1536x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x12.size a ≤ S16384x12.size a
  hwx0_0 : ∀ i : grid0.Coords, EltTy.bits .f32 = 32 ∨ (Rect.block (s := S16384x12) S1024x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x12.size a ≤ S1024x12.size a
  hwx0_1 : ∀ i : grid0.Coords, EltTy.bits .f32 = 32 ∨ (Rect.block (s := S1024x12) S128x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x12.size a ≤ S1024x12.size a
  hwx0_2 : ∀ i : grid0.Coords, EltTy.bits .f32 = 32 ∨ (Rect.block (s := S1024x12) S128x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x1024.size a ≤ S12288x1024.size a
  hwx0_3 : ∀ i : grid0.Coords, EltTy.bits .bf16 = 32 ∨ (Rect.block (s := S12288x1024) S1536x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .bf16 = 32 ∨ (Rect.block (s := S512x1) S512x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S16384x1.size a
  hwx0_9 : ∀ i : grid0.Coords, EltTy.bits .f32 = 32 ∨ (Rect.block (s := S16384x1) S1024x1.size (cc0_transform_9 i) (hinb0_9 i)).WholeWords (EltTy.packing .f32)

variable [Facts₀]

def dot_S1024x1536_S1536x1024_S1024x1024_1_0_0_1_n_n : DotDims S1024x1536 S1536x1024 S1024x1024 where
  lhsContracting := [1]
  rhsContracting := [0]
  lhsNonContracting := [0]
  rhsNonContracting := [1]
  lhsBatch := []
  rhsBatch := []
  wf := dot_S1024x1536_S1536x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1536x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S16384x12 : Shape := ⟨2, ![16384, 12]⟩
abbrev S12x1024 : Shape := ⟨2, ![12, 1024]⟩
abbrev S12288x1024 : Shape := ⟨2, ![12288, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S16384x12x1 : Shape := ⟨3, ![16384, 12, 1]⟩
abbrev S1x12x1024 : Shape := ⟨3, ![1, 12, 1024]⟩
abbrev S16384x12x1024 : Shape := ⟨3, ![16384, 12, 1024]⟩
abbrev S16384x1024x12 : Shape := ⟨3, ![16384, 1024, 12]⟩
abbrev S_ : Shape := ⟨0, ![]⟩
abbrev S16384x12288 : Shape := ⟨2, ![16384, 12288]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x1 : Shape := ⟨2, ![16384, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x12, .f32⟩
  | .hbm, ⟨1, _⟩ => ⟨S12x1024, .f32⟩
  | .hbm, ⟨2, _⟩ => ⟨S12x1024, .f32⟩
  | .hbm, ⟨3, _⟩ => ⟨S12288x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S16384x12x1, .f32⟩
  | .hbm, ⟨10, _⟩ => ⟨S1x12x1024, .f32⟩
  | .hbm, ⟨11, _⟩ => ⟨S16384x12x1024, .f32⟩
  | .hbm, ⟨12, _⟩ => ⟨S16384x12x1024, .f32⟩
  | .hbm, ⟨13, _⟩ => ⟨S16384x12x1024, .f32⟩
  | .hbm, ⟨14, _⟩ => ⟨S1x12x1024, .f32⟩
  | .hbm, ⟨15, _⟩ => ⟨S16384x12x1024, .f32⟩
  | .hbm, ⟨16, _⟩ => ⟨S16384x12x1024, .f32⟩
  | .hbm, ⟨17, _⟩ => ⟨S16384x1024x12, .f32⟩
  | .hbm, ⟨18, _⟩ => ⟨S_, .f32⟩
  | .hbm, ⟨19, _⟩ => ⟨S16384x1024x12, .f32⟩
  | .hbm, ⟨20, _⟩ => ⟨S16384x1024x12, .f32⟩
  | .hbm, ⟨21, _⟩ => ⟨S16384x12288, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x1, .f32⟩
  | .hbm, ⟨37, _⟩ => ⟨S1x1, .f32⟩
  | .hbm, ⟨38, _⟩ => ⟨S16384x1, .f32⟩
  | .hbm, ⟨39, _⟩ => ⟨S16384x1, .f32⟩
  | _, _ => ⟨S16384x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_cst : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S16384x12_S16384x12x1_0_1 : S16384x12.BroadcastsInDim S16384x12x1 (![0, 1] : Fin 2 → Fin S16384x12x1.rank)
  bcast_S12x1024_S1x12x1024_1_2 : S12x1024.BroadcastsInDim S1x12x1024 (![1, 2] : Fin 2 → Fin S1x12x1024.rank)
  bcast_S16384x12x1_S16384x12x1024_0_1_2 : S16384x12x1.BroadcastsInDim S16384x12x1024 (![0, 1, 2] : Fin 3 → Fin S16384x12x1024.rank)
  bcast_S1x12x1024_S16384x12x1024_0_1_2 : S1x12x1024.BroadcastsInDim S16384x12x1024 (![0, 1, 2] : Fin 3 → Fin S16384x12x1024.rank)
  transposes_S16384x12x1024_S16384x1024x12_0_2_1 : S16384x12x1024.Transposes [0, 2, 1] S16384x1024x12
  bcast_S_S16384x1024x12 : S_.BroadcastsInDim S16384x1024x12 (![] : Fin 0 → Fin S16384x1024x12.rank)
  shapeCasts_S16384x1024x12_S16384x12288 : S16384x1024x12.ShapeCasts S16384x12288
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x12288_S12288x1024_S16384x1024_1_0_0_1_n_n_wf : DotDims.WF S16384x12288 S12288x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def dot_S16384x12288_S12288x1024_S16384x1024_1_0_0_1_n_n : DotDims S16384x12288 S12288x1024 S16384x1024 where
  lhsContracting := [1]
  rhsContracting := [0]
  lhsNonContracting := [0]
  rhsNonContracting := [1]
  lhsBatch := []
  rhsBatch := []
  wf := dot_S16384x12288_S12288x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.KernelCases.lean ====
/-
  What each control case of the kernel body leaves behind, as the body's stored values.

  The body has three cases, by the hidden-block coordinate h of the grid point: h = 0 (the accumulator is reset and the
  first block added), 0 < h < 7 (a block added to what the point before left), h = 7 (the last block added, then the
  output tile stored from the finished accumulator). In every case the accumulator ends as the accumulate step's value
  over the point's input blocks; at h = 0 it is taken over the zero block, otherwise over the previous contents. At
  h = 7 the output tile is the tail's value over the accumulator JUST stored and the small weight and bias blocks.
  Each load reads a whole staging buffer, so it returns that buffer's contents.
-/
import proofs.«145012_j85701777424559_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S1024x12 .f32) (harg2 : arg2.IsWhole) (arg3 : Memref sig .tc .vmem S128x12 .f32) (harg3 : arg3.IsWhole) (arg4 : Memref sig .tc .vmem S128x12 .f32) (harg4 : arg4.IsWhole) (arg5 : Memref sig .tc .vmem S1536x1024 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x1 .bf16) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x1024 .f32) (harg12 : arg12.IsWhole)
  (x0 : Vec F S1024x12 .f32) (x1 : Vec F S128x12 .f32) (x2 : Vec F S128x12 .f32) (x3 : Vec F S1536x1024 .bf16) (x4 : Vec F S1024x512 .bf16) (x5 : Vec F S1x1024 .f32) (x6 : Vec F S1x512 .f32) (x7 : Vec F S512x1 .bf16) (x8 : Vec F S1x1 .f32)

/-- h = 0: the accumulator is the first block's share added to the zero block. -/
theorem scratch_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread,
    View.ld_unit_zero (S := S1024x12) hz, View.ld_unit_zero (S := S128x12) hz, View.ld_unit_zero (S := S1536x1024) hz,
    View.ld_unit_zero (S := S1024x1024) hz]

/-- 0 < h < 7: this block's share added to what the point before left. -/
theorem scratch_B (hc0 : ¬cond0_0 i) (hc1 : ¬cond0_1 i) (xs0 : Vec F S1024x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz]
  simp only [View.readAt_eq_ld, harg2.read_unread, harg3.read_unread, harg4.read_unread, harg5.read_unread, harg12.read_unread,
    View.ld_unit_zero (S := S1024x12) hz, View.ld_unit_zero (S := S128x12) hz, View.ld_unit_zero (S := S1536x1024) hz,
    View.ld_unit_zero (S := S1024x1024) hz]

/-- h = 7: the accumulator likewise. -/
theorem scratch_C (hc0 : ¬cond0_0 i) (hc1 : cond0_1 i) (xs0 : Vec F S1024x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg12.read_unread,
    View.ld_unit_zero (S := S1024x12) hz, View.ld_unit_zero (S := S128x12) hz, View.ld_unit_zero (S := S1536x1024) hz,
    View.ld_unit_zero (S := S1024x1024) hz]

/-- h = 7: the output tile is the tail applied to the finished accumulator. (Window 4 stages the second layer's
    weights, 5 the first layer's bias, 6 the second's, 7 the last layer's weights, 8 its bias.) -/
theorem out_C (hc0 : ¬cond0_0 i) (hc1 : cond0_1 i) (xs0 : Vec F S1024x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = k0_pay3 (k0_pay2 x0 x1 x2 x3 xs0) x5 x4 x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg12.read_unread,
    View.readCov_unit_zero (S := S1024x1024) _ hz,
    View.ld_unit_zero (S := S1024x12) hz, View.ld_unit_zero (S := S128x12) hz, View.ld_unit_zero (S := S1536x1024) hz,
    View.ld_unit_zero (S := S1024x1024) hz, View.ld_unit_zero (S := S1024x512) hz, View.ld_unit_zero (S := S1x1024) hz,
    View.ld_unit_zero (S := S1x512) hz, View.ld_unit_zero (S := S512x1) hz, View.ld_unit_zero (S := S1x1) hz]

end Cert.KernelIdeal.Cases

end
-- ==== Proof.KernelPayload.lean ====
/-
  The three values the kernel body stores, read at one index, at the ideal values.

  The body keeps a [1024, 1024] accumulator. It stores zero into it at the first hidden block; at every hidden block it
  stores  acc + A · W  where A [1024, 1536] is the rectified expansion of the batch tile against this block's 128
  hidden units (column q of A belongs to hidden unit q / 12 of the block and input feature q % 12) and W is the
  matching [1536, 1024] slab of the first layer's weights; at the last block it stores, into the output tile, the two
  remaining dense layers applied to  max (acc + b0, 0).

  A matrix product into a zero accumulator is, at the ideal values, the plain sum over the contraction index; the
  changes of float format are the identity; the reshapes and broadcasts are read back to their operands' indices.
-/
import proofs.«145012_j85701777424559_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The three matrix products at an index -/

theorem lhsA_0 (i : S1024x1024.Idx) (q : dot_S1024x1536_S1536x1024_S1024x1024_1_0_0_1_n_n.contr.Idx) :
    (dot_S1024x1536_S1536x1024_S1024x1024_1_0_0_1_n_n.lhsIdx i q 0).val = (i 0).val := by
  unfold DotDims.lhsIdx
  rw [dif_neg (show ¬(0 : Fin S1024x1536.rank) ∈ dot_S1024x1536_S1536x1024_S1024x1024_1_0_0_1_n_n.lhsBatch by decide), dif_pos (show (0 : Fin S1024x1536.rank) ∈ dot_S1024x1536_S1536x1024_S1024x1024_1_0_0_1_n_n.lhsNonContracting by decide)]
  rfl
theorem lhsA_1 (i : S1024x1024.Idx) (q : dot_S1024x1536_S1536x1024_S1024x1024_1_0_0_1_n_n.contr.Idx) :
    (dot_S1024x1536_S1536x1024_S1024x1024_1_0_0_1_n_n.lhsIdx i q 1).val = (q ⟨0, by decide⟩).val :=
  dot_S1024x1536_S1536x1024_S1024x1024_1_0_0_1_n_n.lhsIdx_val_of_single rfl i q
theorem rhsA_0 (i : S1024x1024.Idx) (q : dot_S1024x1536_S1536x1024_S1024x1024_1_0_0_1_n_n.contr.Idx) :
    (dot_S1024x1536_S1536x1024_S1024x1024_1_0_0_1_n_n.rhsIdx i q 0).val = (q ⟨0, by decide⟩).val :=
  dot_S1024x1536_S1536x1024_S1024x1024_1_0_0_1_n_n.rhsIdx_val_of_single rfl i q
theorem rhsA_1 (i : S1024x1024.Idx) (q : dot_S1024x1536_S1536x1024_S1024x1024_1_0_0_1_n_n.contr.Idx) :
    (dot_S1024x1536_S1536x1024_S1024x1024_1_0_0_1_n_n.rhsIdx i q 1).val = (i 1).val := by
  unfold DotDims.rhsIdx
  rw [dif_neg (show ¬(1 : Fin S1536x1024.rank) ∈ dot_S1024x1536_S1536x1024_S1024x1024_1_0_0_1_n_n.rhsBatch by decide), dif_pos (show (1 : Fin S1536x1024.rank) ∈ dot_S1024x1536_S1536x1024_S1024x1024_1_0_0_1_n_n.rhsNonContracting by decide)]
  rfl

/-- The accumulate step's product [1024, 1536] · [1536, 1024] into zero, at (p, n). -/
theorem matmulA_apply (A : FVec Ideal S1024x1536 .bf16) (B : FVec Ideal S1536x1024 .bf16) (p : Fin 1024) (n : Fin 1024) :
    matmul dot_S1024x1536_S1536x1024_S1024x1024_1_0_0_1_n_n none A B (constant (F := Ideal) S1024x1024 .f32 0x00000000#32) (ix2 p n)
      = ∑ k : Fin 1536, A (ix2 p k) * B (ix2 k n) := by
  simp only [matmul]
  rw [Ideal.matmul_constant_zero_apply, ← Equiv.sum_comp (contrEquiv1 dot_S1024x1536_S1536x1024_S1024x1024_1_0_0_1_n_n 1536 rfl rfl).symm]
  refine Finset.sum_congr rfl fun k _ => ?_
  have hk := contrEquiv1_symm_val dot_S1024x1536_S1536x1024_S1024x1024_1_0_0_1_n_n 1536 rfl rfl k
  have el : dot_S1024x1536_S1536x1024_S1024x1024_1_0_0_1_n_n.lhsIdx (ix2 p n) ((contrEquiv1 dot_S1024x1536_S1536x1024_S1024x1024_1_0_0_1_n_n 1536 rfl rfl).symm k) = ix2 p k := funext fun a => Fin.ext (by
    match a with
    | ⟨0, _⟩ => exact lhsA_0 _ _
    | ⟨1, _⟩ => exact (lhsA_1 _ _).trans hk)
  have er : dot_S1024x1536_S1536x1024_S1024x1024_1_0_0_1_n_n.rhsIdx (ix2 p n) ((contrEquiv1 dot_S1024x1536_S1536x1024_S1024x1024_1_0_0_1_n_n 1536 rfl rfl).symm k) = ix2 k n := funext fun a => Fin.ext (by
    match a with
    | ⟨0, _⟩ => exact (rhsA_0 _ _).trans hk
    | ⟨1, _⟩ => exact rhsA_1 _ _)
  rw [el, er]

theorem lhsB_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhsB_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhsB_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhsB_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The second layer's product [1024, 1024] · [1024, 512] into zero, at (p, r). -/
theorem matmulB_apply (A : FVec Ideal S1024x1024 .bf16) (B : FVec Ideal S1024x512 .bf16) (p : Fin 1024) (r : Fin 512) :
    matmul dot_S1024x1024_S1024x512_S1024x512_1_0_0_1_n_n none A B (constant (F := Ideal) S1024x512 .f32 0x00000000#32) (ix2 p r)
      = ∑ k : Fin 1024, A (ix2 p k) * B (ix2 k r) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p r) ((contrEquiv1 dot_S1024x1024_S1024x512_S1024x512_1_0_0_1_n_n 1024 rfl rfl).symm k) = ix2 p k := funext fun a => Fin.ext (by
    match a with
    | ⟨0, _⟩ => exact lhsB_0 _ _
    | ⟨1, _⟩ => exact (lhsB_1 _ _).trans hk)
  have er : dot_S1024x1024_S1024x512_S1024x512_1_0_0_1_n_n.rhsIdx (ix2 p r) ((contrEquiv1 dot_S1024x1024_S1024x512_S1024x512_1_0_0_1_n_n 1024 rfl rfl).symm k) = ix2 k r := funext fun a => Fin.ext (by
    match a with
    | ⟨0, _⟩ => exact (rhsB_0 _ _).trans hk
    | ⟨1, _⟩ => exact rhsB_1 _ _)
  rw [el, er]

theorem lhsC_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhsC_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhsC_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhsC_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- The last layer's product [1024, 512] · [512, 1] into zero, at (p, z). -/
theorem matmulC_apply (A : FVec Ideal S1024x512 .bf16) (B : FVec Ideal S512x1 .bf16) (p : Fin 1024) (z : Fin 1) :
    matmul dot_S1024x512_S512x1_S1024x1_1_0_0_1_n_n none A B (constant (F := Ideal) S1024x1 .f32 0x00000000#32) (ix2 p z)
      = ∑ k : Fin 512, A (ix2 p k) * B (ix2 k z) := by
  simp only [matmul]
  rw [Ideal.matmul_constant_zero_apply, ← Equiv.sum_comp (contrEquiv1 dot_S1024x512_S512x1_S1024x1_1_0_0_1_n_n 512 rfl rfl).symm]
  refine Finset.sum_congr rfl fun k _ => ?_
  have hk := contrEquiv1_symm_val dot_S1024x512_S512x1_S1024x1_1_0_0_1_n_n 512 rfl rfl k
  have el : dot_S1024x512_S512x1_S1024x1_1_0_0_1_n_n.lhsIdx (ix2 p z) ((contrEquiv1 dot_S1024x512_S512x1_S1024x1_1_0_0_1_n_n 512 rfl rfl).symm k) = ix2 p k := funext fun a => Fin.ext (by
    match a with
    | ⟨0, _⟩ => exact lhsC_0 _ _
    | ⟨1, _⟩ => exact (lhsC_1 _ _).trans hk)
  have er : dot_S1024x512_S512x1_S1024x1_1_0_0_1_n_n.rhsIdx (ix2 p z) ((contrEquiv1 dot_S1024x512_S512x1_S1024x1_1_0_0_1_n_n 512 rfl rfl).symm k) = ix2 k z := funext fun a => Fin.ext (by
    match a with
    | ⟨0, _⟩ => exact (rhsC_0 _ _).trans hk
    | ⟨1, _⟩ => exact rhsC_1 _ _)
  rw [el, er]

/-! ## The expansion block's reshapes and broadcasts -/

/-- The hidden unit (within the block of 128) and the input feature a column of the expansion block belongs to. -/
def colHid (q : Fin 1536) : Fin 128 := ⟨q.val / 12, by have := q.isLt; omega⟩
def colInp (q : Fin 1536) : Fin 12 := ⟨q.val % 12, Nat.mod_lt _ (by decide)⟩

section Layout
variable {α : Type}

/-- [1024, 128, 12] flattened to [1024, 1536]: column q is (q / 12, q % 12). -/
theorem flatten_apply (u : S1024x128x12.Idx → α) (p : Fin 1024) (q : Fin 1536) :
    shapeCast S1024x1536 u shapeCasts_S1024x128x12_S1024x1536 (ix2 p q) = u (ix3 p (colHid q) (colInp q)) :=
  shapeCast_apply u shapeCasts_S1024x128x12_S1024x1536 _ _ (by
    rw [Shape.rowMajor_val_three, Shape.rowMajor_val_two]
    show (p.val * 128 + q.val / 12) * 12 + q.val % 12 = p.val * 1536 + q.val
    omega)

/-- [1024, 12] with a unit middle axis added. -/
theorem addMiddle_apply (v : S1024x12.Idx → α) (p : Fin 1024) (u : Fin 1) (i : Fin 12) :
    shapeCast S1024x1x12 v shapeCasts_S1024x12_S1024x1x12 (ix3 p u i) = v (ix2 p i) :=
  shapeCast_apply v shapeCasts_S1024x12_S1024x1x12 _ _ (by
    have hu : u.val = 0 := by have := u.isLt; omega
    rw [Shape.rowMajor_val_two, Shape.rowMajor_val_three]
    show p.val * 12 + i.val = (p.val * 1 + u.val) * 12 + i.val
    rw [hu]; omega)

/-- [1024, 1, 12] broadcast along the middle axis. -/
theorem bcastMiddle_apply (w : S1024x1x12.Idx → α) (p : Fin 1024) (h : Fin 128) (i : Fin 12) :
    broadcastTo S1024x128x12 w broadcasts_S1024x1x12_S1024x128x12 (ix3 p h i) = w (ix3 p (0 : Fin 1) i) :=
  broadcastTo_apply w broadcasts_S1024x1x12_S1024x128x12 _ _ fun a => by
    match a with
    | ⟨0, _⟩ => show p.val = if (1024 : Nat) = 1 then 0 else p.val; rw [if_neg (by decide)]
    | ⟨1, _⟩ => show 0 = if (1 : Nat) = 1 then 0 else h.val; rw [if_pos rfl]
    | ⟨2, _⟩ => show i.val = if (12 : Nat) = 1 then 0 else i.val; rw [if_neg (by decide)]

/-- [1, 128, 12] broadcast along the leading axis. -/
theorem bcastLead_apply (w : S1x128x12.Idx → α) (p : Fin 1024) (h : Fin 128) (i : Fin 12) :
    broadcastTo S1024x128x12 w broadcasts_S1x128x12_S1024x128x12 (ix3 p h i) = w (ix3 (0 : Fin 1) h i) :=
  broadcastTo_apply w broadcasts_S1x128x12_S1024x128x12 _ _ fun a => by
    match a with
    | ⟨0, _⟩ => show 0 = if (1 : Nat) = 1 then 0 else p.val; rw [if_pos rfl]
    | ⟨1, _⟩ => show h.val = if (128 : Nat) = 1 then 0 else h.val; rw [if_neg (by decide)]
    | ⟨2, _⟩ => show i.val = if (12 : Nat) = 1 then 0 else i.val; rw [if_neg (by decide)]

end Layout

/-! ## The stored values -/

/-- The reset: zero everywhere. -/
theorem pay1_apply (j : S1024x1024.Idx) : k0_pay1 (F := Ideal) j = 0 := by
  unfold k0_pay1
  simp only [shapeCast_self]
  show Ideal.ofBits .f32 0x00000000#32 = 0
  exact Ideal.ofBits_zero_f32

/-- One entry of the rectified expansion of a batch tile against a block of 128 hidden units. -/
def expandAt (v3 : FVec Ideal S1024x12 .f32) (v4 v6 : FVec Ideal S128x12 .f32) (p : Fin 1024) (q : Fin 1536) : EReal :=
  max (v3 (ix2 p (colInp q)) * v4 (ix2 (colHid q) (colInp q)) + v6 (ix2 (colHid q) (colInp q))) 0

/-- The accumulate step: what was there plus this block's share of the first layer's sum. -/
theorem pay2_apply (v3 : FVec Ideal S1024x12 .f32) (v4 v6 : FVec Ideal S128x12 .f32) (v20 : FVec Ideal S1536x1024 .bf16)
    (v22 : FVec Ideal S1024x1024 .f32) (p n : Fin 1024) :
    k0_pay2 (F := Ideal) v3 v4 v6 v20 v22 (ix2 p n)
      = v22 (ix2 p n) + ∑ q : Fin 1536, expandAt v3 v4 v6 p q * v20 (ix2 q n) := by
  unfold k0_pay2
  simp only [shapeCast_self]
  rw [addf_apply, matmulA_apply]
  refine congrArg (v22 (ix2 p n) + ·) (Finset.sum_congr rfl fun q _ => ?_)
  refine congrArg (· * v20 (ix2 q n)) ?_
  rw [truncf_apply, flatten_apply, maximumf_apply, addf_apply, mulf_apply, bcastMiddle_apply, addMiddle_apply,
    bcastLead_apply, shapeCast_ab_1ab_apply, bcastLead_apply, shapeCast_ab_1ab_apply, broadcast_apply]
  show max _ (Ideal.ofBits .f32 0x00000000#32) = _
  rw [Ideal.ofBits_zero_f32]
  rfl

/-- The tail: the two remaining dense layers applied to max (acc + b0, 0), at row p of the tile. -/
theorem pay3_apply (v31 : FVec Ideal S1024x1024 .f32) (v32 : FVec Ideal S1x1024 .f32) (v39 : FVec Ideal S1024x512 .bf16)
    (v42 : FVec Ideal S1x512 .f32) (v49 : FVec Ideal S512x1 .bf16) (v52 : FVec Ideal S1x1 .f32) (p : Fin 1024) (z : Fin 1) :
    k0_pay3 (F := Ideal) v31 v32 v39 v42 v49 v52 (ix2 p z)
      = (∑ r : Fin 512, max ((∑ n : Fin 1024, max (v31 (ix2 p n) + v32 (ix2 (0 : Fin 1) n)) 0 * v39 (ix2 n r))
            + v42 (ix2 (0 : Fin 1) r)) 0 * v49 (ix2 r z)) + v52 (ix2 (0 : Fin 1) z) := by
  unfold k0_pay3
  simp only [shapeCast_self]
  rw [addf_apply, matmulC_apply, broadcastTo_1b_ab_apply]
  refine congrArg (· + v52 (ix2 (0 : Fin 1) z)) (Finset.sum_congr rfl fun r _ => ?_)
  refine congrArg (· * v49 (ix2 r z)) ?_
  rw [truncf_apply, maximumf_apply, addf_apply, matmulB_apply, broadcastTo_1b_ab_apply, broadcast_apply]
  show max _ (Ideal.ofBits .f32 0x00000000#32) = _
  rw [Ideal.ofBits_zero_f32]
  refine congrArg (max · 0) (congrArg (· + v42 (ix2 (0 : Fin 1) r)) (Finset.sum_congr rfl fun n _ => ?_))
  refine congrArg (· * v39 (ix2 n r)) ?_
  rw [truncf_apply, maximumf_apply, addf_apply, broadcastTo_1b_ab_apply, broadcast_apply]
  show max _ (Ideal.ofBits .f32 0x00000000#32) = _
  rw [Ideal.ofBits_zero_f32]

end Cert.KernelIdeal.Payload

end
-- ==== Proof.KernelBlocks.lean ====
/-
  The blocks the pipeline stages at a grid point, as entries of the nine argument arrays, at the ideal values.

  The grid is 16 batch tiles by 8 hidden blocks; point t is batch tile t / 8, hidden block t % 8. The batch tile
  of x is rows 1024 (t / 8) .. + 1023. The per-feature weights and biases reach the kernel transposed, [1024, 12], and
  their block is rows 128 (t % 8) .. + 127, that is hidden units of that range for every feature. The first layer's
  weights reach it with only the float format changed (the identity at the ideal values); their block is rows
  1536 (t % 8) .. + 1535. The remaining operands are staged whole: the other two weight matrices unchanged, the three
  biases with a leading unit axis added.
-/
import proofs.«145012_j85701777424559_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

/-! ## Names of literal type for the blocks and the arrays -/

section Names
variable {F : FTy → Type} [FloatOps F] (m : (ℓ : Loc nD τ sig) → Buf (Elt F) ℓ)

abbrev xB (c : Dev nD) (t : Fin cfg0.N) : Vec F S1024x12 .f32 := iblk m c 0 t
abbrev wfB (c : Dev nD) (t : Fin cfg0.N) : Vec F S128x12 .f32 := iblk m c 1 t
abbrev bfB (c : Dev nD) (t : Fin cfg0.N) : Vec F S128x12 .f32 := iblk m c 2 t
abbrev w0B (c : Dev nD) (t : Fin cfg0.N) : Vec F S1536x1024 .bf16 := iblk m c 3 t
abbrev w1B (c : Dev nD) (t : Fin cfg0.N) : Vec F S1024x512 .bf16 := iblk m c 4 t
abbrev b0B (c : Dev nD) (t : Fin cfg0.N) : Vec F S1x1024 .f32 := iblk m c 5 t
abbrev b1B (c : Dev nD) (t : Fin cfg0.N) : Vec F S1x512 .f32 := iblk m c 6 t
abbrev w2B (c : Dev nD) (t : Fin cfg0.N) : Vec F S512x1 .bf16 := iblk m c 7 t
abbrev b2B (c : Dev nD) (t : Fin cfg0.N) : Vec F S1x1 .f32 := iblk m c 8 t

abbrev aX (c : Dev nD) : Vec F S16384x12 .f32 := m ((c : Thread nD τ).loc main_arg0)
abbrev aWf (c : Dev nD) : Vec F S12x1024 .f32 := m ((c : Thread nD τ).loc main_arg1)
abbrev aBf (c : Dev nD) : Vec F S12x1024 .f32 := m ((c : Thread nD τ).loc main_arg2)
abbrev aW0 (c : Dev nD) : Vec F S12288x1024 .f32 := m ((c : Thread nD τ).loc main_arg3)
abbrev aB0 (c : Dev nD) : Vec F S1024 .f32 := m ((c : Thread nD τ).loc main_arg4)
abbrev aW1 (c : Dev nD) : Vec F S1024x512 .f32 := m ((c : Thread nD τ).loc main_arg5)
abbrev aB1 (c : Dev nD) : Vec F S512 .f32 := m ((c : Thread nD τ).loc main_arg6)
abbrev aW2 (c : Dev nD) : Vec F S512x1 .f32 := m ((c : Thread nD τ).loc main_arg7)
abbrev aB2 (c : Dev nD) : Vec F S1 .f32 := m ((c : Thread nD τ).loc main_arg8)

end Names

/-! ## The index maps, decided over the grid -/

theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val / 8 ∧ win0_9.index t (1 : Fin 2) = 0 :=
  (by decide +kernel : ∀ t : Fin grid0.N, _)

/-! ## The arrays the region finds, after the host operations -/

section AtIdeal
variable (m : (ℓ : Loc nD τ sig) → Buf (Elt Ideal) ℓ)

theorem V_wfT (c : Dev nD) : (V m c main_v0 : FVec Ideal S1024x12 .f32)
    = transpose S1024x12 [1, 0] (aWf m c) transposes_S12x1024_S1024x12_1_0 := by
  dsimp only [V, hostOps0]; after_results
theorem V_bfT (c : Dev nD) : (V m c main_v1 : FVec Ideal S1024x12 .f32)
    = transpose S1024x12 [1, 0] (aBf m c) transposes_S12x1024_S1024x12_1_0 := by
  dsimp only [V, hostOps0]; after_results
theorem V_w0 (c : Dev nD) : (V m c main_v2 : FVec Ideal S12288x1024 .bf16) = truncf .bf16 (aW0 m c) bitsLt_bf16_f32 := by
  dsimp only [V, hostOps0]; after_results
theorem V_w1 (c : Dev nD) : (V m c main_v3 : FVec Ideal S1024x512 .bf16) = truncf .bf16 (aW1 m c) bitsLt_bf16_f32 := by
  dsimp only [V, hostOps0]; after_results
theorem V_w2 (c : Dev nD) : (V m c main_v4 : FVec Ideal S512x1 .bf16) = truncf .bf16 (aW2 m c) bitsLt_bf16_f32 := by
  dsimp only [V, hostOps0]; after_results
theorem V_b0 (c : Dev nD) : (V m c main_v5 : FVec Ideal S1x1024 .f32) = shapeCast S1x1024 (aB0 m c) shapeCasts_S1024_S1x1024 := by
  dsimp only [V, hostOps0]; after_results; rfl
theorem V_b1 (c : Dev nD) : (V m c main_v6 : FVec Ideal S1x512 .f32) = shapeCast S1x512 (aB1 m c) shapeCasts_S512_S1x512 := by
  dsimp only [V, hostOps0]; after_results; rfl
theorem V_b2 (c : Dev nD) : (V m c main_v7 : FVec Ideal S1x1 .f32) = shapeCast S1x1 (aB2 m c) shapeCasts_S1_S1x1 := by
  dsimp only [V, hostOps0]; after_results; rfl

/-! ## Each block at an index -/

/-- The batch tile of x. -/
theorem xB_apply (c : Dev nD) (t : Fin cfg0.N) (p : Fin 1024) (f : Fin 12) (b : Fin 16384) (hb : b.val = 1024 * (t.val / 8) + p.val) :
    xB m c t (ix2 p f) = aX m c (ix2 b f) := by
  obtain ⟨e0, e1, -⟩ := idx_facts t
  show V m c main_arg0 (((cfg0.win 0).blk t).view.emb (ix2 p f)) = _
  rw [V_main_arg0]
  refine congrArg (m ((c : Thread nD τ).loc main_arg0)) (funext fun a => Fin.ext ?_)
  match a with
  | ⟨0, _⟩ => show win0_0.index t (0 : Fin 2) * 1024 + 1 * p.val = b.val; rw [e0, hb]; omega
  | ⟨1, _⟩ => show win0_0.index t (1 : Fin 2) * 12 + 1 * f.val = f.val; rw [e1]; omega

/-- The transposed per-feature weights: row h of the block is hidden unit 128 (t % 8) + h. -/
theorem wfB_apply (c : Dev nD) (t : Fin cfg0.N) (h : Fin 128) (f : Fin 12) (u : Fin 1024) (hu : u.val = 128 * (t.val % 8) + h.val) :
    wfB m c t (ix2 h f) = aWf m c (ix2 f u) := by
  obtain ⟨-, -, e0, e1, -⟩ := idx_facts t
  show V m c main_v0 (((cfg0.win 1).blk t).view.emb (ix2 h f)) = _
  have e : ((cfg0.win 1).blk t).view.emb (ix2 h f) = ix2 u f := funext fun a => Fin.ext (by
    match a with
    | ⟨0, _⟩ => show win0_1.index t (0 : Fin 2) * 128 + 1 * h.val = u.val; rw [e0, hu]; omega
    | ⟨1, _⟩ => show win0_1.index t (1 : Fin 2) * 12 + 1 * f.val = f.val; rw [e1]; omega)
  rw [e]
  exact (congrFun (V_wfT m c) (ix2 u f)).trans (transpose_ix2_apply _ _ u f)

/-- The transposed per-feature biases, likewise. -/
theorem bfB_apply (c : Dev nD) (t : Fin cfg0.N) (h : Fin 128) (f : Fin 12) (u : Fin 1024) (hu : u.val = 128 * (t.val % 8) + h.val) :
    bfB m c t (ix2 h f) = aBf m c (ix2 f u) := by
  obtain ⟨-, -, -, -, e0, e1, -⟩ := idx_facts t
  show V m c main_v1 (((cfg0.win 2).blk t).view.emb (ix2 h f)) = _
  have e : ((cfg0.win 2).blk t).view.emb (ix2 h f) = ix2 u f := funext fun a => Fin.ext (by
    match a with
    | ⟨0, _⟩ => show win0_2.index t (0 : Fin 2) * 128 + 1 * h.val = u.val; rw [e0, hu]; omega
    | ⟨1, _⟩ => show win0_2.index t (1 : Fin 2) * 12 + 1 * f.val = f.val; rw [e1]; omega)
  rw [e]
  exact (congrFun (V_bfT m c) (ix2 u f)).trans (transpose_ix2_apply _ _ u f)

/-- The slab of the first layer's weights. -/
theorem w0B_apply (c : Dev nD) (t : Fin cfg0.N) (q : Fin 1536) (n : Fin 1024) (k : Fin 12288) (hk : k.val = 1536 * (t.val % 8) + q.val) :
    w0B m c t (ix2 q n) = aW0 m c (ix2 k n) := by
  obtain ⟨-, -, -, -, -, -, e0, e1, -⟩ := idx_facts t
  show V m c main_v2 (((cfg0.win 3).blk t).view.emb (ix2 q n)) = _
  have e : ((cfg0.win 3).blk t).view.emb (ix2 q n) = ix2 k n := funext fun a => Fin.ext (by
    match a with
    | ⟨0, _⟩ => show win0_3.index t (0 : Fin 2) * 1536 + 1 * q.val = k.val; rw [e0, hk]; omega
    | ⟨1, _⟩ => show win0_3.index t (1 : Fin 2) * 1024 + 1 * n.val = n.val; rw [e1]; omega)
  rw [e]
  exact congrFun (V_w0 m c) (ix2 k n)

/-- The second layer's weights, whole. -/
theorem w1B_apply (c : Dev nD) (t : Fin cfg0.N) (n : Fin 1024) (r : Fin 512) :
    w1B m c t (ix2 n r) = aW1 m c (ix2 n r) := by
  obtain ⟨-, -, -, -, -, -, -, -, e0, e1, -⟩ := idx_facts t
  show V m c main_v3 (((cfg0.win 4).blk t).view.emb (ix2 n r)) = _
  have e : ((cfg0.win 4).blk t).view.emb (ix2 n r) = ix2 n r := funext fun a => Fin.ext (by
    match a with
    | ⟨0, _⟩ => show win0_4.index t (0 : Fin 2) * 1024 + 1 * n.val = n.val; rw [e0]; omega
    | ⟨1, _⟩ => show win0_4.index t (1 : Fin 2) * 512 + 1 * r.val = r.val; rw [e1]; omega)
  rw [e]
  exact congrFun (V_w1 m c) (ix2 n r)

/-- The first layer's bias, as one row. -/
theorem b0B_apply (c : Dev nD) (t : Fin cfg0.N) (n : Fin 1024) :
    b0B m c t (ix2 (0 : Fin 1) n) = aB0 m c (ix1 n) := by
  obtain ⟨-, -, -, -, -, -, -, -, -, -, e0, e1, -⟩ := idx_facts t
  show V m c main_v5 (((cfg0.win 5).blk t).view.emb (ix2 (0 : Fin 1) n)) = _
  have e : ((cfg0.win 5).blk t).view.emb (ix2 (0 : Fin 1) n) = ix2 (0 : Fin 1) n := funext fun a => Fin.ext (by
    match a with
    | ⟨0, _⟩ => show win0_5.index t (0 : Fin 2) * 1 + 1 * 0 = 0; rw [e0]
    | ⟨1, _⟩ => show win0_5.index t (1 : Fin 2) * 1024 + 1 * n.val = n.val; rw [e1]; omega)
  rw [e]
  exact (congrFun (V_b0 m c) (ix2 (0 : Fin 1) n)).trans (shapeCast_a_1a_apply _ _ (0 : Fin 1) n)

/-- The second layer's bias, as one row. -/
theorem b1B_apply (c : Dev nD) (t : Fin cfg0.N) (r : Fin 512) :
    b1B m c t (ix2 (0 : Fin 1) r) = aB1 m c (ix1 r) := by
  obtain ⟨-, -, -, -, -, -, -, -, -, -, -, -, e0, e1, -⟩ := idx_facts t
  show V m c main_v6 (((cfg0.win 6).blk t).view.emb (ix2 (0 : Fin 1) r)) = _
  have e : ((cfg0.win 6).blk t).view.emb (ix2 (0 : Fin 1) r) = ix2 (0 : Fin 1) r := funext fun a => Fin.ext (by
    match a with
    | ⟨0, _⟩ => show win0_6.index t (0 : Fin 2) * 1 + 1 * 0 = 0; rw [e0]
    | ⟨1, _⟩ => show win0_6.index t (1 : Fin 2) * 512 + 1 * r.val = r.val; rw [e1]; omega)
  rw [e]
  exact (congrFun (V_b1 m c) (ix2 (0 : Fin 1) r)).trans (shapeCast_a_1a_apply _ _ (0 : Fin 1) r)

/-- The last layer's weights, whole. -/
theorem w2B_apply (c : Dev nD) (t : Fin cfg0.N) (r : Fin 512) (z : Fin 1) :
    w2B m c t (ix2 r z) = aW2 m c (ix2 r z) := by
  obtain ⟨-, -, -, -, -, -, -, -, -, -, -, -, -, -, e0, e1, -⟩ := idx_facts t
  show V m c main_v4 (((cfg0.win 7).blk t).view.emb (ix2 r z)) = _
  have e : ((cfg0.win 7).blk t).view.emb (ix2 r z) = ix2 r z := funext fun a => Fin.ext (by
    match a with
    | ⟨0, _⟩ => show win0_7.index t (0 : Fin 2) * 512 + 1 * r.val = r.val; rw [e0]; omega
    | ⟨1, _⟩ => show win0_7.index t (1 : Fin 2) * 1 + 1 * z.val = z.val; rw [e1]; omega)
  rw [e]
  exact congrFun (V_w2 m c) (ix2 r z)

/-- The last layer's bias, as a one-by-one block. -/
theorem b2B_apply (c : Dev nD) (t : Fin cfg0.N) (z : Fin 1) :
    b2B m c t (ix2 (0 : Fin 1) z) = aB2 m c (ix1 (0 : Fin 1)) := by
  obtain ⟨-, -, -, -, -, -, -, -, -, -, -, -, -, -, -, -, e0, e1, -⟩ := idx_facts t
  have hz0 : z = 0 := Fin.ext (by have := z.isLt; omega)
  subst hz0
  show V m c main_v7 (((cfg0.win 8).blk t).view.emb (ix2 (0 : Fin 1) (0 : Fin 1))) = _
  have e : ((cfg0.win 8).blk t).view.emb (ix2 (0 : Fin 1) (0 : Fin 1)) = ix2 (0 : Fin 1) (0 : Fin 1) := funext fun a => Fin.ext (by
    match a with
    | ⟨0, _⟩ => show win0_8.index t (0 : Fin 2) * 1 + 1 * 0 = 0; rw [e0]
    | ⟨1, _⟩ => show win0_8.index t (1 : Fin 2) * 1 + 1 * 0 = 0; rw [e1])
  rw [e]
  exact (congrFun (V_b2 m c) (ix2 (0 : Fin 1) (0 : Fin 1))).trans (shapeCast_a_1a_apply _ _ (0 : Fin 1) (0 : Fin 1))

end AtIdeal

end Cert.KernelIdeal.Blocks

end
-- ==== Proof.Spec.lean ====
/-
  The function of the nine argument arrays that both programs compute, over the extended reals.

  Every input feature x[b, i] (i < 12) is expanded by its own affine map into 1024 hidden values and passed through
  max(·, 0); the 12288 = 1024 · 12 expanded values of a batch row, laid out hidden-major (position k holds hidden
  unit k / 12 of input feature k % 12), feed a three-layer perceptron 12288 → 1024 → 512 → 1 with max(·, 0)
  after the first two layers:

    feat b k  = max (x[b, k % 12] · Wf[k % 12, k / 12] + bf[k % 12, k / 12]) 0
    lay0 b n  = max ((∑ k < 12288, feat b k · W0[k, n]) + b0[n]) 0
    lay1 b p  = max ((∑ n < 1024, lay0 b n · W1[n, p]) + b1[p]) 0
    out  b    =      (∑ p < 512,  lay1 b p · W2[p, 0]) + b2[0]

  The second half of the file is the one algebraic law the two programs differ by: a sum over 12288 positions is the
  sum of its 8 consecutive blocks of 1536, and adding the blocks one at a time onto 0, in order, reaches it. Both hold
  in any commutative additive monoid, so on the extended reals they need no finiteness.
-/
import Idealize.ShloMosaic.PureOps.Ideal.Laws
import Idealize.ShloMosaic.Lib.ValueIdx

noncomputable section

open scoped BigOperators
open Idealize.ShloMosaic Idealize.ShloMosaic.ValueIdx

namespace Cert.FeatMlp

/-! ## Positions of the expanded row -/

/-- The hidden unit a position of the expanded row belongs to. -/
def hid (k : Fin 12288) : Fin 1024 := ⟨k.val / 12, by have := k.isLt; omega⟩
/-- The input feature a position of the expanded row belongs to. -/
def inp (k : Fin 12288) : Fin 12 := ⟨k.val % 12, Nat.mod_lt _ (by decide)⟩

/-- Position q of block j of the expanded row (8 blocks of 1536 = 128 hidden units · 12 features). -/
def pos (j : Fin 8) (q : Fin 1536) : Fin 12288 := ⟨j.val * 1536 + q.val, by have := j.isLt; have := q.isLt; omega⟩

theorem hid_pos (j : Fin 8) (q : Fin 1536) : (hid (pos j q)).val = j.val * 128 + q.val / 12 := by
  show (j.val * 1536 + q.val) / 12 = _
  omega
theorem inp_pos (j : Fin 8) (q : Fin 1536) : (inp (pos j q)).val = q.val % 12 := by
  show (j.val * 1536 + q.val) % 12 = _
  omega

/-! ## The function -/

section Fn
variable (x : (⟨2, ![16384, 12]⟩ : Shape).Idx → EReal) (Wf bf : (⟨2, ![12, 1024]⟩ : Shape).Idx → EReal)
  (W0 : (⟨2, ![12288, 1024]⟩ : Shape).Idx → EReal) (b0 : (⟨1, ![1024]⟩ : Shape).Idx → EReal)
  (W1 : (⟨2, ![1024, 512]⟩ : Shape).Idx → EReal) (b1 : (⟨1, ![512]⟩ : Shape).Idx → EReal)
  (W2 : (⟨2, ![512, 1]⟩ : Shape).Idx → EReal) (b2 : (⟨1, ![1]⟩ : Shape).Idx → EReal)

/-- One expanded value of batch row b. -/
def feat (b : Fin 16384) (k : Fin 12288) : EReal :=
  max (x (ix2 b (inp k)) * Wf (ix2 (inp k) (hid k)) + bf (ix2 (inp k) (hid k))) 0

/-- The first layer's pre-activation sum, without its bias. -/
def dot0 (b : Fin 16384) (n : Fin 1024) : EReal := ∑ k : Fin 12288, feat x Wf bf b k * W0 (ix2 k n)

def lay0 (b : Fin 16384) (n : Fin 1024) : EReal := max (dot0 x Wf bf W0 b n + b0 (ix1 n)) 0

def lay1 (b : Fin 16384) (p : Fin 512) : EReal :=
  max ((∑ n : Fin 1024, lay0 x Wf bf W0 b0 b n * W1 (ix2 n p)) + b1 (ix1 p)) 0

/-- The result array [16384, 1]. -/
def out : (⟨2, ![16384, 1]⟩ : Shape).Idx → EReal := fun j =>
  (∑ p : Fin 512, lay1 x Wf bf W0 b0 W1 b1 (j 0) p * W2 (ix2 p (0 : Fin 1))) + b2 (ix1 (0 : Fin 1))

/-- Block j's share of the first layer's sum. -/
def dot0Block (b : Fin 16384) (n : Fin 1024) (j : Fin 8) : EReal :=
  ∑ q : Fin 1536, feat x Wf bf b (pos j q) * W0 (ix2 (pos j q) n)

end Fn

/-! ## A sum in consecutive blocks, added one block at a time -/

section Blocks
variable {M : Type*} [AddCommMonoid M]

/-- The 12288 positions are the pairs (block, position in the block). -/
def posEquiv : Fin 8 × Fin 1536 ≃ Fin 12288 where
  toFun p := pos p.1 p.2
  invFun k := (⟨k.val / 1536, by have := k.isLt; omega⟩, ⟨k.val % 1536, Nat.mod_lt _ (by decide)⟩)
  left_inv p := by
    obtain ⟨j, q⟩ := p
    have hj := j.isLt
    have hq := q.isLt
    refine Prod.ext (Fin.ext ?_) (Fin.ext ?_)
    · show (j.val * 1536 + q.val) / 1536 = j.val
      omega
    · show (j.val * 1536 + q.val) % 1536 = q.val
      omega
  right_inv k := by
    apply Fin.ext
    show k.val / 1536 * 1536 + k.val % 1536 = k.val
    omega

/-- A sum over all positions is the sum over the blocks of each block's sum. -/
theorem sum_blocks (f : Fin 12288 → M) : ∑ j : Fin 8, ∑ q : Fin 1536, f (pos j q) = ∑ k : Fin 12288, f k := by
  rw [← Fintype.sum_prod_type (f := fun p : Fin 8 × Fin 1536 => f (pos p.1 p.2))]
  exact Equiv.sum_comp posEquiv f

/-- The first n of eight terms, summed. -/
def firstTerms (g : Fin 8 → M) (n : ℕ) : M := ∑ j : Fin 8, if j.val < n then g j else 0

theorem firstTerms_zero (g : Fin 8 → M) : firstTerms g 0 = 0 := by
  unfold firstTerms
  exact Finset.sum_eq_zero fun j _ => if_neg (Nat.not_lt_zero _)

theorem firstTerms_succ (g : Fin 8 → M) (n : ℕ) (h : n < 8) : firstTerms g (n + 1) = firstTerms g n + g ⟨n, h⟩ := by
  unfold firstTerms
  have e : ∀ j : Fin 8, (if j.val < n + 1 then g j else 0) = (if j.val < n then g j else 0) + (if j = ⟨n, h⟩ then g j else 0) := by
    intro j
    by_cases h1 : j.val < n
    · have h2 : ¬ j = ⟨n, h⟩ := fun e => by rw [e] at h1; exact Nat.lt_irrefl _ h1
      rw [if_pos h1, if_pos (Nat.lt_succ_of_lt h1), if_neg h2, add_zero]
    · by_cases h3 : j.val = n
      · have h2 : j = ⟨n, h⟩ := Fin.ext h3
        rw [if_neg h1, if_pos (by omega), if_pos h2, zero_add]
      · have h2 : ¬ j = ⟨n, h⟩ := fun e => h3 (congrArg Fin.val e)
        rw [if_neg h1, if_neg (by omega), if_neg h2, zero_add]
  rw [Finset.sum_congr rfl fun j _ => e j, Finset.sum_add_distrib, Finset.sum_ite_eq' Finset.univ (⟨n, h⟩ : Fin 8) g,
    if_pos (Finset.mem_univ _)]

theorem firstTerms_all (g : Fin 8 → M) : firstTerms g 8 = ∑ j : Fin 8, g j := by
  unfold firstTerms
  exact Finset.sum_congr rfl fun j _ => if_pos j.isLt

end Blocks

/-- The first layer's sum is its eight block shares added up. -/
theorem dot0_eq_blocks (x : (⟨2, ![16384, 12]⟩ : Shape).Idx → EReal) (Wf bf : (⟨2, ![12, 1024]⟩ : Shape).Idx → EReal)
    (W0 : (⟨2, ![12288, 1024]⟩ : Shape).Idx → EReal) (b : Fin 16384) (n : Fin 1024) :
    firstTerms (dot0Block x Wf bf W0 b n) 8 = dot0 x Wf bf W0 b n := by
  rw [firstTerms_all]
  exact sum_blocks fun k => feat x Wf bf b k * W0 (ix2 k n)

end Cert.FeatMlp

end
-- ==== Proof.KernelFold.lean ====
/-
  The kernel's result array is the specification's function of its nine arguments.

  Fix a batch tile (16 of them) and follow its eight grid points in order. The accumulator after the point of hidden
  block j holds, at row p and column n, the first j + 1 block shares of the first layer's sum for batch row
  1024 · tile + p: the first point stores zero and adds share 0, each later point adds its own share to what the point
  before left. After the eighth point that is the whole sum over the 12288 expanded positions (a sum in a
  commutative monoid may be taken block by block). The eighth point then stores the output tile: the remaining two dense
  layers of max (sum + bias, 0), which is the specification's value at those 1024 batch rows. Only the eighth point of a
  tile writes its block back, and those sixteen blocks tile the result array.
-/
import proofs.«145012_j85701777424559_1_alg».proof.Proof.Gen.KernelIdeal.Value
import proofs.«145012_j85701777424559_1_alg».proof.Proof.KernelCases
import proofs.«145012_j85701777424559_1_alg».proof.Proof.KernelPayload
import proofs.«145012_j85701777424559_1_alg».proof.Proof.KernelBlocks
import proofs.«145012_j85701777424559_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Blocks Cert.KernelIdeal.Payload Cert.FeatMlp

/-! ## What a point leaves, for any float values -/

section AnyValues
variable {F : FTy → Type} [FloatOps F] (m : (ℓ : Loc nD τ sig) → Buf (Elt F) ℓ)

/-- At the first point of a tile the accumulator is the first block's share over the zero block. -/
theorem scAt_reset (c : Dev nD) (n : ℕ) (hb : n < cfg0.N) (h0 : n % 8 = 0) (acc : Vec F S1024x1024 .f32) :
    Value.scAt0_0 m c n hb acc
      = k0_pay2 (xB m c ⟨n, hb⟩) (wfB m c ⟨n, hb⟩) (bfB m c ⟨n, hb⟩) (w0B m c ⟨n, hb⟩) (k0_pay1 (F := F)) := by
  have h1 : ¬n % 8 = 7 := by omega
  unfold Value.scAt0_0
  rw [dif_pos h0, dif_neg h1, Cases.scratch_A]

/-- At every later point it is this block's share over what the point before left. -/
theorem scAt_step (c : Dev nD) (n : ℕ) (hb : n < cfg0.N) (h0 : ¬n % 8 = 0) (acc : Vec F S1024x1024 .f32) :
    Value.scAt0_0 m c n hb acc
      = k0_pay2 (xB m c ⟨n, hb⟩) (wfB m c ⟨n, hb⟩) (bfB m c ⟨n, hb⟩) (w0B m c ⟨n, hb⟩) acc := by
  unfold Value.scAt0_0
  by_cases h1 : n % 8 = 7
  · rw [dif_neg h0, dif_pos h1, Cases.scratch_C]
  · rw [dif_neg h0, dif_neg h1, Cases.scratch_B]

/-- At the last point of a tile the output tile is the tail over the accumulator that point leaves. -/
theorem out_last (c : Dev nD) (t : Fin cfg0.N) (h1 : t.val % 8 = 7) :
    (outsAt0 m c t.val t.isLt).1
      = k0_pay3 (outsAt0 m c t.val t.isLt).2 (b0B m c t) (w1B m c t) (b1B m c t) (w2B m c t) (b2B m c t) := by
  have h0 : ¬t.val % 8 = 0 := by omega
  rw [outsAt0_C m c t h0 h1]
  dsimp only
  rw [Cases.out_C, Cases.scratch_C]

end AnyValues

/-! ## At the ideal values -/

section AtIdeal
variable (m : (ℓ : Loc nD τ sig) → Buf (Elt Ideal) ℓ)

/-- Block t % 8's share of the first layer's sum, as the point's blocks spell it. -/
theorem share_eq (c : Dev nD) (t : Fin cfg0.N) (p n : Fin 1024) (b : Fin 16384) (hb : b.val = 1024 * (t.val / 8) + p.val)
    (j : Fin 8) (hj : j.val = t.val % 8) :
    ∑ q : Fin 1536, expandAt (xB m c t) (wfB m c t) (bfB m c t) p q * w0B m c t (ix2 q n)
      = dot0Block (aX m c) (aWf m c) (aBf m c) (aW0 m c) b n j := by
  unfold dot0Block
  refine Finset.sum_congr rfl fun q _ => ?_
  have hq := q.isLt
  have ei : colInp q = inp (pos j q) := Fin.ext (inp_pos j q).symm
  have eu : (hid (pos j q)).val = 128 * (t.val % 8) + (colHid q).val := by
    rw [hid_pos, ← hj]; show j.val * 128 + q.val / 12 = 128 * j.val + q.val / 12; omega
  have ek : (pos j q).val = 1536 * (t.val % 8) + q.val := by
    rw [← hj]; show j.val * 1536 + q.val = 1536 * j.val + q.val; omega
  unfold expandAt feat
  rw [xB_apply m c t p (colInp q) b hb, wfB_apply m c t (colHid q) (colInp q) (hid (pos j q)) eu,
    bfB_apply m c t (colHid q) (colInp q) (hid (pos j q)) eu, w0B_apply m c t q n (pos j q) ek, ei]

/-- THE INVARIANT. After the point of hidden block j of batch tile i, the accumulator holds the first j + 1 block shares. -/
theorem acc_eq (c : Dev nD) (i : ℕ) (p n : Fin 1024) (b : Fin 16384) (hb : b.val = 1024 * i + p.val) :
    ∀ (j : ℕ) (hj : j < 8) (h : 8 * i + j < cfg0.N),
      Pipeline.accAt (fun n h => Value.scAt0_0 m c n h (VS0_0.read (Elt Ideal) VS0_0.junk)) (Value.scAt0_0 m c) (8 * i) j h (ix2 p n)
        = firstTerms (dot0Block (aX m c) (aWf m c) (aBf m c) (aW0 m c) b n) (j + 1)
  | 0, hj, h => by
    have hd : (8 * i + 0) / 8 = i := by omega
    rw [Pipeline.accAt_zero, scAt_reset m c (8 * i) h (by omega), pay2_apply, pay1_apply, zero_add,
      share_eq m c ⟨8 * i, h⟩ p n b (by show b.val = 1024 * (8 * i / 8) + p.val; rw [hb]; omega) ⟨0, by omega⟩
        (by show 0 = 8 * i % 8; omega),
      firstTerms_succ _ 0 (by omega), firstTerms_zero, zero_add]
  | j + 1, hj, h => by
    rw [Pipeline.accAt_succ, scAt_step m c (8 * i + (j + 1)) h (by omega), pay2_apply,
      acc_eq c i p n b hb j (by omega) (Nat.lt_of_succ_lt h),
      share_eq m c ⟨8 * i + (j + 1), h⟩ p n b (by show b.val = 1024 * ((8 * i + (j + 1)) / 8) + p.val; rw [hb]; omega)
        ⟨j + 1, hj⟩ (by show j + 1 = (8 * i + (j + 1)) % 8; omega),
      firstTerms_succ _ (j + 1) hj]

/-- The specification's function of this run's arguments. -/
abbrev result (c : Dev nD) : Buf (Elt Ideal) ((c : Thread nD τ).loc main_v8) :=
  out (aX m c) (aWf m c) (aBf m c) (aW0 m c) (aB0 m c) (aW1 m c) (aB1 m c) (aW2 m c) (aB2 m c)

/-- What the last point of a tile writes back is that tile of the specification's function. -/
theorem flushed_eq (c : Dev nD) (t : Fin cfg0.N) (hf : (cfg0.win 9).flush t = true) :
    (dats m 0 c).flushed 9 t = ((cfg0.win 9).blk t).view.read (Elt Ideal) (result m c) := by
  have h1 : t.val % 8 = 7 := (flush0_9 t).mp hf
  have ht := lt_of_lt_of_eq t.isLt (show cfg0.N = 128 from N_0)
  obtain ⟨-, -, -, -, -, -, -, -, -, -, -, -, -, -, -, -, -, -, e0, e1⟩ := idx_facts t
  rw [Value.flushed9]
  funext y
  obtain ⟨p, z, rfl⟩ : ∃ (p : Fin 1024) (z : Fin 1), y = ix2 p z := ⟨y 0, y 1, eq_ix2 y⟩
  have hz0 : z = 0 := Fin.ext (by have := z.isLt; omega)
  subst hz0
  have hbl : 1024 * (t.val / 8) + p.val < 16384 := by have := p.isLt; omega
  have e : ((cfg0.win 9).blk t).view.emb (ix2 p (0 : Fin 1)) = ix2 (⟨1024 * (t.val / 8) + p.val, hbl⟩ : Fin 16384) (0 : Fin 1) :=
    funext fun a => Fin.ext (by
      match a with
      | ⟨0, _⟩ => show win0_9.index t (0 : Fin 2) * 1024 + 1 * p.val = 1024 * (t.val / 8) + p.val; rw [e0]; omega
      | ⟨1, _⟩ => show win0_9.index t (1 : Fin 2) * 1 + 1 * 0 = 0; rw [e1])
  show (outsAt0 m c t.val t.isLt).1 (ix2 p (0 : Fin 1)) = result m c (((cfg0.win 9).blk t).view.emb (ix2 p (0 : Fin 1)))
  rw [e, out_last m c t h1, pay3_apply]
  have hacc : ∀ n : Fin 1024, (outsAt0 m c t.val t.isLt).2 (ix2 p n)
      = dot0 (aX m c) (aWf m c) (aBf m c) (aW0 m c) ⟨1024 * (t.val / 8) + p.val, hbl⟩ n := fun n => by
    rw [Value.soutsAt0_0_eq m c t,
      acc_eq m c (t.val / 8) p n ⟨1024 * (t.val / 8) + p.val, hbl⟩ rfl (t.val % 8) (by omega) _,
      show t.val % 8 + 1 = 8 from by omega, dot0_eq_blocks]
  simp only [hacc, b0B_apply, w1B_apply, b1B_apply, w2B_apply, b2B_apply]
  rfl

/-- Every batch row lies in the block its tile's last point writes back. -/
theorem cover (i : S16384x1.Idx) : ∃ t : Fin cfg0.N, (cfg0.win 9).flush t = true ∧ i ∈ ((cfg0.win 9).blk t).view.set := by
  have h0 : (i 0).val < 16384 := (i 0).isLt
  have h1 : (i 1).val < 1 := (i 1).isLt
  have hN : cfg0.N = 128 := N_0
  have hlt : 8 * ((i 0).val / 1024) + 7 < cfg0.N := by rw [hN]; omega
  refine ⟨⟨8 * ((i 0).val / 1024) + 7, hlt⟩, (flush0_9 _).mpr (by show (8 * ((i 0).val / 1024) + 7) % 8 = 7; omega), ?_⟩
  obtain ⟨-, -, -, -, -, -, -, -, -, -, -, -, -, -, -, -, -, -, e0, e1⟩ := idx_facts ⟨8 * ((i 0).val / 1024) + 7, hlt⟩
  show i ∈ ((View.whole main_v8).slice (win0_9.rect ⟨8 * ((i 0).val / 1024) + 7, hlt⟩)).set
  rw [View.set_slice_whole, Rect.mem_set_unit]
  intro a
  match a with
  | ⟨0, _⟩ =>
    show win0_9.index ⟨8 * ((i 0).val / 1024) + 7, hlt⟩ (0 : Fin 2) * 1024 ≤ (i 0).val
      ∧ (i 0).val < win0_9.index ⟨8 * ((i 0).val / 1024) + 7, hlt⟩ (0 : Fin 2) * 1024 + 1024
    rw [e0]; show (8 * ((i 0).val / 1024) + 7) / 8 * 1024 ≤ (i 0).val ∧ (i 0).val < (8 * ((i 0).val / 1024) + 7) / 8 * 1024 + 1024
    omega
  | ⟨1, _⟩ =>
    show win0_9.index ⟨8 * ((i 0).val / 1024) + 7, hlt⟩ (1 : Fin 2) * 1 ≤ (i 1).val
      ∧ (i 1).val < win0_9.index ⟨8 * ((i 0).val / 1024) + 7, hlt⟩ (1 : Fin 2) * 1 + 1
    rw [e1]; omega

/-- The result array after the run. -/
theorem final (c : Dev nD) : (dats m 0 c).arrAt 9 cfg0.N = result m c :=
  (dats m 0 c).arrAt_eq_of_cover 9 (result m c) (flushed_eq m c) cover

/-- The kernel's run: the result array at the specification's function, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end AtIdeal

end Cert.KernelIdeal.Fold

end
-- ==== Proof.RefValue.lean ====
/-
  The reference program's result is the specification's function of its nine arguments.

  The reference expands x to [16384, 12, 1024] by broadcasting, applies the per-feature affine maps, swaps the last
  two axes and flattens to [16384, 12288]: flat position k of a row therefore holds hidden unit k / 12 of input
  feature k % 12, which is the specification's layout. The three dense layers are then plain sums over the contraction
  index at the ideal values, each followed by its bias and (the first two) max(·, 0) against the zero word.
-/
import proofs.«145012_j85701777424559_1_alg».proof.Proof.Gen.ReferenceIdeal.Read
import proofs.«145012_j85701777424559_1_alg».proof.Proof.Spec

noncomputable section

open scoped BigOperators
open Idealize.ShloMosaic Idealize.ShloMosaic.ValueIdx

namespace Cert.ReferenceIdeal.RefValue

open Cert.ReferenceIdeal Cert.ReferenceIdeal.Read Cert.FeatMlp

variable (x0 : (⟨S16384x12, .f32⟩ : BufTy).Contents (Elt Ideal)) (x1 x2 : (⟨S12x1024, .f32⟩ : BufTy).Contents (Elt Ideal))
  (x3 : (⟨S12288x1024, .f32⟩ : BufTy).Contents (Elt Ideal)) (x4 : (⟨S1024, .f32⟩ : BufTy).Contents (Elt Ideal))
  (x5 : (⟨S1024x512, .f32⟩ : BufTy).Contents (Elt Ideal)) (x6 : (⟨S512, .f32⟩ : BufTy).Contents (Elt Ideal))
  (x7 : (⟨S512x1, .f32⟩ : BufTy).Contents (Elt Ideal)) (x8 : (⟨S1, .f32⟩ : BufTy).Contents (Elt Ideal))

/-- The flattened, rectified expansion at row b, position k: broadcast, multiply, add, swap the last two axes,
    max with zero, flatten — read back to x[b, k % 12], Wf[k % 12, k / 12], bf[k % 12, k / 12]. -/
theorem expanded_eq (b : Fin 16384) (k : Fin 12288) :
    val_main_v10 (F := Ideal) x0 x1 x2 (ix2 b k) = feat x0 x1 x2 b k := by
  have hk := k.isLt
  have e0 : idx_main_v0 (idx_main_v2 (idx_main_v8 (idx_main_v10 (ix2 b k)))) = ix2 b (inp k) :=
    funext fun a => Fin.ext (by
      match a with
      | ⟨0, _⟩ => show (b.val * 12288 + k.val) / 12288 = b.val; omega
      | ⟨1, _⟩ => show (b.val * 12288 + k.val) % 12 = k.val % 12; omega)
  have e1 : idx_main_v1 (idx_main_v3 (idx_main_v8 (idx_main_v10 (ix2 b k)))) = ix2 (inp k) (hid k) :=
    funext fun a => Fin.ext (by
      match a with
      | ⟨0, _⟩ => show (b.val * 12288 + k.val) % 12 = k.val % 12; omega
      | ⟨1, _⟩ => show (b.val * 12288 + k.val) / 12 % 1024 = k.val / 12; omega)
  have e2 : idx_main_v5 (idx_main_v6 (idx_main_v8 (idx_main_v10 (ix2 b k)))) = ix2 (inp k) (hid k) :=
    funext fun a => Fin.ext (by
      match a with
      | ⟨0, _⟩ => show (b.val * 12288 + k.val) % 12 = k.val % 12; omega
      | ⟨1, _⟩ => show (b.val * 12288 + k.val) / 12 % 1024 = k.val / 12; omega)
  rw [val_main_v10_apply, val_main_v9_apply, val_main_v8_apply, val_main_v7_apply, val_main_v4_apply, val_main_v2_apply,
    val_main_v0_apply, val_main_v3_apply, val_main_v1_apply, val_main_v6_apply, val_main_v5_apply,
    val_main_call0_v0_apply, val_main_call0_cst_apply, e0, e1, e2]
  simp only [Ideal.maximumf_def, Ideal.addf_def, Ideal.mulf_def, Ideal.ofBits_def, Ideal.ofBits_zero_f32]
  rfl

/-- The first dense layer with its bias and max(·, 0). -/
theorem hidden0_eq (b : Fin 16384) (n : Fin 1024) :
    val_main_v15 (F := Ideal) x0 x1 x2 x3 x4 (ix2 b n) = lay0 x0 x1 x2 x3 x4 b n := by
  have el : ∀ k : Fin 12288, lidx_main_v11 (ix2 b n) k = ix2 b k := fun k =>
    funext fun a => Fin.ext (by match a with | ⟨0, _⟩ => rfl | ⟨1, _⟩ => rfl)
  have er : ∀ k : Fin 12288, ridx_main_v11 (ix2 b n) k = ix2 k n := fun k =>
    funext fun a => Fin.ext (by match a with | ⟨0, _⟩ => rfl | ⟨1, _⟩ => rfl)
  have eb : idx_main_v12 (idx_main_v13 (ix2 b n)) = ix1 n :=
    funext fun a => Fin.ext (by match a with | ⟨0, _⟩ => rfl)
  rw [val_main_v15_apply, val_main_v14_apply, val_main_v11_apply, val_main_v13_apply, val_main_v12_apply,
    val_main_call1_v0_apply, val_main_call1_cst_apply, eb]
  simp only [el, er, expanded_eq, Ideal.maximumf_def, Ideal.addf_def, Ideal.ofBits_def, Ideal.ofBits_zero_f32]
  rfl

/-- The second dense layer with its bias and max(·, 0). -/
theorem hidden1_eq (b : Fin 16384) (p : Fin 512) :
    val_main_v20 (F := Ideal) x0 x1 x2 x3 x4 x5 x6 (ix2 b p) = lay1 x0 x1 x2 x3 x4 x5 x6 b p := by
  have el : ∀ k : Fin 1024, lidx_main_v16 (ix2 b p) k = ix2 b k := fun k =>
    funext fun a => Fin.ext (by match a with | ⟨0, _⟩ => rfl | ⟨1, _⟩ => rfl)
  have er : ∀ k : Fin 1024, ridx_main_v16 (ix2 b p) k = ix2 k p := fun k =>
    funext fun a => Fin.ext (by match a with | ⟨0, _⟩ => rfl | ⟨1, _⟩ => rfl)
  have eb : idx_main_v17 (idx_main_v18 (ix2 b p)) = ix1 p :=
    funext fun a => Fin.ext (by match a with | ⟨0, _⟩ => rfl)
  rw [val_main_v20_apply, val_main_v19_apply, val_main_v16_apply, val_main_v18_apply, val_main_v17_apply,
    val_main_call2_v0_apply, val_main_call2_cst_apply, eb]
  simp only [el, er, hidden0_eq, Ideal.maximumf_def, Ideal.addf_def, Ideal.ofBits_def, Ideal.ofBits_zero_f32]
  rfl

/-- The whole result array: the last dense layer and its bias. -/
theorem result_eq : val_main_v24 (F := Ideal) x0 x1 x2 x3 x4 x5 x6 x7 x8 = out x0 x1 x2 x3 x4 x5 x6 x7 x8 := by
  funext i
  obtain ⟨b, z, rfl⟩ : ∃ (b : Fin 16384) (z : Fin 1), i = ix2 b z := ⟨i 0, i 1, eq_ix2 i⟩
  have hz : z = 0 := Fin.ext (by have := z.isLt; omega)
  subst hz
  have el : ∀ k : Fin 512, lidx_main_v21 (ix2 b (0 : Fin 1)) k = ix2 b k := fun k =>
    funext fun a => Fin.ext (by match a with | ⟨0, _⟩ => rfl | ⟨1, _⟩ => rfl)
  have er : ∀ k : Fin 512, ridx_main_v21 (ix2 b (0 : Fin 1)) k = ix2 k (0 : Fin 1) := fun k =>
    funext fun a => Fin.ext (by match a with | ⟨0, _⟩ => rfl | ⟨1, _⟩ => rfl)
  have eb : idx_main_v22 (idx_main_v23 (ix2 b (0 : Fin 1))) = ix1 (0 : Fin 1) :=
    funext fun a => Fin.ext (by match a with | ⟨0, _⟩ => rfl)
  rw [val_main_v24_apply, val_main_v21_apply, val_main_v23_apply, val_main_v22_apply, eb]
  simp only [el, er, hidden1_eq, Ideal.addf_def]
  rfl

end Cert.ReferenceIdeal.RefValue

end
-- ==== Proof.lean ====
/-
  A per-feature expansion followed by a three-layer perceptron, fused into one pipelined kernel, against its plain
  reference: equal results over the extended reals.

  Both programs compute, for each of 16384 batch rows b,
      out b = (∑ p < 512, lay1 b p · W2[p, 0]) + b2[0],
      lay1 b p = max ((∑ n < 1024, lay0 b n · W1[n, p]) + b1[p]) 0,
      lay0 b n = max ((∑ k < 12288, feat b k · W0[k, n]) + b0[n]) 0,
      feat b k = max (x[b, k % 12] · Wf[k % 12, k / 12] + bf[k % 12, k / 12]) 0        (Proof/Spec.lean).
  The reference builds the [16384, 12288] expansion whole and contracts it in one product (Proof/RefValue.lean over the
  generated read-back of its run). The kernel never builds it: on a grid of 16 batch tiles by 8 blocks of 128 hidden units
  it expands one [1024, 1536] tile at a time, multiplies it with the matching 1536 rows of W0 and adds the product to
  a [1024, 1024] accumulator that it zeroes at a tile's first block; at the tile's last block it applies the bias, the
  two small layers and stores the output tile (Proof/KernelPayload.lean: the stored values at an index;
  Proof/KernelCases.lean: what each of the body's three control cases leaves; Proof/KernelBlocks.lean: the staged
  blocks as entries of the arguments; Proof/KernelFold.lean: the accumulator after each point, the written-back tiles
  and the result array).

  The one law between the two is that a sum over 12288 positions is the sum of its eight consecutive blocks of 1536
  added one at a time onto zero: associativity and commutativity of addition only, which hold on the extended reals
  without any finiteness, so the precondition is never opened. Changes of float format are the identity at the ideal
  values and a matrix product into a zero accumulator is the plain sum over its contraction index, on both sides; the
  only float literal either program has is the zero word. The idealization rewrote nothing, so the kernel's idealized
  text is its own text and there is nothing to preserve. The three frames are the generated ones; the reference's is
  its generated run with the result dropped.
-/
import proofs.«145012_j85701777424559_1_alg».proof.Defs
import proofs.«145012_j85701777424559_1_alg».proof.Proof.Gen.Kernel
import proofs.«145012_j85701777424559_1_alg».proof.Proof.Gen.Kernel.Skeleton
import proofs.«145012_j85701777424559_1_alg».proof.Proof.Gen.Kernel.Launch
import proofs.«145012_j85701777424559_1_alg».proof.Proof.Gen.Kernel.Points
import proofs.«145012_j85701777424559_1_alg».proof.Proof.Gen.Kernel.Frame
import proofs.«145012_j85701777424559_1_alg».proof.Proof.Gen.KernelIdeal
import proofs.«145012_j85701777424559_1_alg».proof.Proof.Gen.KernelIdeal.Skeleton
import proofs.«145012_j85701777424559_1_alg».proof.Proof.Gen.KernelIdeal.Launch
import proofs.«145012_j85701777424559_1_alg».proof.Proof.Gen.KernelIdeal.Points
import proofs.«145012_j85701777424559_1_alg».proof.Proof.Gen.KernelIdeal.Frame
import proofs.«145012_j85701777424559_1_alg».proof.Proof.Gen.ReferenceIdeal
import proofs.«145012_j85701777424559_1_alg».proof.Proof.Gen.Pre_finite_inputs
import proofs.«145012_j85701777424559_1_alg».proof.Proof.Gen.KernelIdeal.Value
import proofs.«145012_j85701777424559_1_alg».proof.Proof.Gen.ReferenceIdeal.Run
import proofs.«145012_j85701777424559_1_alg».proof.Proof.Gen.ReferenceIdeal.Read
import proofs.«145012_j85701777424559_1_alg».proof.Proof.KernelFold
import proofs.«145012_j85701777424559_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the specification's function of them. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v24_eq, Cert.ReferenceIdeal.RefValue.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
